-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S262144 : Shape := ⟨1, ![262144]⟩
abbrev S128 : Shape := ⟨1, ![128]⟩
abbrev S500000x128 : Shape := ⟨2, ![500000, 128]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S262144 : S_.BroadcastsInDim S262144 (![] : Fin 0 → Fin S262144.rank)
  reducesTo_S262144_S_d0 : S262144.ReducesTo [0] S_
  bcast_S_S128 : S_.BroadcastsInDim S128 (![] : Fin 0 → Fin S128.rank)
  reducesTo_S128_S_d0 : S128.ReducesTo [0] S_

variable [Facts]

def fn {F : FTy → Type} [FloatOps F] (main_arg0 : FVec F S500000 .f32) (main_arg1 : FVec F S262144 .f32) (main_arg2 : FVec F S128 .f32) (main_arg3 : IVec S500000 32) (main_arg4 : IVec S500000x128 32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S500000 : Shape := ⟨1, ![500000]⟩
abbrev S262144 : Shape := ⟨1, ![262144]⟩
abbrev S128 : Shape := ⟨1, ![128]⟩
abbrev S500000x128 : Shape := ⟨2, ![500000, 128]⟩
abbrev S_ : Shape := ⟨0, ![]⟩
abbrev S500000x128x1 : Shape := ⟨3, ![500000, 128, 1]⟩
abbrev S500000x1 : Shape := ⟨2, ![500000, 1]⟩
abbrev S1x128 : Shape := ⟨2, ![1, 128]⟩
abbrev S5000x128 : Shape := ⟨2, ![5000, 128]⟩
abbrev S5000x1 : Shape := ⟨2, ![5000, 1]⟩
abbrev S262144x128 : Shape := ⟨2, ![262144, 128]⟩
abbrev S262144x1 : Shape := ⟨2, ![262144, 1]⟩

abbrev nBuf : Space → Nat
  | .hbm => 33
  | .vmem => 7
  | .smem => 0
  | _ => 0

abbrev bufTy : (tb : Table) → Fin (tcTables nBuf tb) → BufTy
  | .hbm, ⟨0, _⟩ => ⟨S500000, .f32⟩
  | .hbm, ⟨1, _⟩ => ⟨S262144, .f32⟩
  | .hbm, ⟨2, _⟩ => ⟨S128, .f32⟩
  | .hbm, ⟨3, _⟩ => ⟨S500000, .i32⟩
  | .hbm, ⟨4, _⟩ => ⟨S500000x128, .i32⟩
  | .hbm, ⟨5, _⟩ => ⟨S_, .i32⟩
  | .hbm, ⟨6, _⟩ => ⟨S500000x128, .i32⟩
  | .hbm, ⟨7, _⟩ => ⟨S500000x128, .i1⟩
  | .hbm, ⟨8, _⟩ => ⟨S_, .i32⟩
  | .hbm, ⟨9, _⟩ => ⟨S500000x128, .i32⟩
  | .hbm, ⟨10, _⟩ => ⟨S500000x128, .i32⟩
  | .hbm, ⟨11, _⟩ => ⟨S500000x128, .i32⟩
  | .hbm, ⟨12, _⟩ => ⟨S500000x128x1, .i32⟩
  | .hbm, ⟨13, _⟩ => ⟨S500000x128, .f32⟩
  | .hbm, ⟨14, _⟩ => ⟨S500000x1, .f32⟩
  | .hbm, ⟨15, _⟩ => ⟨S1x128, .f32⟩
  | .hbm, ⟨16, _⟩ => ⟨S500000x128, .f32⟩
  | .hbm, ⟨17, _⟩ => ⟨S_, .f32⟩
  | .hbm, ⟨18, _⟩ => ⟨S262144x128, .f32⟩
  | .hbm, ⟨19, _⟩ => ⟨S500000x1, .i32⟩
  | .hbm, ⟨20, _⟩ => ⟨S262144x128, .f32⟩
  | .hbm, ⟨21, _⟩ => ⟨S_, .f32⟩
  | .hbm, ⟨22, _⟩ => ⟨S500000, .f32⟩
  | .hbm, ⟨23, _⟩ => ⟨S_, .f32⟩
  | .hbm, ⟨24, _⟩ => ⟨S262144, .f32⟩
  | .hbm, ⟨25, _⟩ => ⟨S500000x1, .i32⟩
  | .hbm, ⟨26, _⟩ => ⟨S262144, .f32⟩
  | .hbm, ⟨27, _⟩ => ⟨S_, .f32⟩
  | .hbm, ⟨28, _⟩ => ⟨S262144, .f32⟩
  | .hbm, ⟨29, _⟩ => ⟨S262144, .f32⟩
  | .hbm, ⟨30, _⟩ => ⟨S262144x1, .f32⟩
  | .hbm, ⟨31, _⟩ => ⟨S262144x128, .f32⟩
  | .hbm, ⟨32, _⟩ => ⟨S262144x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S500000x128 : S_.BroadcastsInDim S500000x128 (![] : Fin 0 → Fin S500000x128.rank)
  bcast_S500000x128_S500000x128x1_0_1 : S500000x128.BroadcastsInDim S500000x128x1 (![0, 1] : Fin 2 → Fin S500000x128x1.rank)
  shapeCasts_S500000_S500000x1 : S500000.ShapeCasts S500000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S262144x128 : S_.BroadcastsInDim S262144x128 (![] : Fin 0 → Fin S262144x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  gather_S262144_S500000x128x1_S500000x128_n_0_n_n_0_2_1_wf : GatherDims.WF S262144 S500000x128x1 S500000x128 [] [0] [] [0] [] 2 ![1]
  scatter_S262144x128_S500000x1_S500000x128_1_0_0_1_wf : ScatterDims.WF S262144x128 S500000x1 S500000x128 [1] [0] [0] 1
  scatter_S262144_S500000x1_S500000_n_0_0_1_wf : ScatterDims.WF S262144 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S500000x1.size a
  hwx0_1 : ∀ i : grid0.Coords, EltTy.bits .f32 = 32 ∨ (Rect.block (s := S500000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S500000x128.size a
  hwx0_3 : ∀ i : grid0.Coords, EltTy.bits .f32 = 32 ∨ (Rect.block (s := S500000x128) S5000x128.size (cc0_transform_3 i) (hinb0_3 i)).WholeWords (EltTy.packing .f32)

variable [Facts₀]

def gather_S262144_S500000x128x1_S500000x128_n_0_n_n_0_2_1 : GatherDims S262144 S500000x128x1 S500000x128 where
  offsetDims := []
  collapsedSliceDims := [0]
  operandBatchingDims := []
  startIndicesBatchingDims := []
  startIndexMap := [0]
  indexVectorDim := 2
  sliceSizes := ![1]
  wf := gather_S262144_S500000x128x1_S500000x128_n_0_n_n_0_2_1_wf
def scatter_S262144x128_S500000x1_S500000x128_1_0_0_1 : ScatterDims S262144x128 S500000x1 S500000x128 where
  updateWindowDims := [1]
  insertedWindowDims := [0]
  scatterDimsToOperandDims := [0]
  indexVectorDim := 1
  wf := scatter_S262144x128_S500000x1_S500000x128_1_0_0_1_wf
def scatter_S262144_S500000x1_S500000_n_0_0_1 : ScatterDims S262144 S500000x1 S500000 where
  updateWindowDims := []
  insertedWindowDims := [0]
  scatterDimsToOperandDims := [0]
  indexVectorDim := 1
  wf := scatter_S262144_S500000x1_S500000_n_0_0_1_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000 : Shape := ⟨1, ![500000]⟩
abbrev S262144 : Shape := ⟨1, ![262144]⟩
abbrev S128 : Shape := ⟨1, ![128]⟩
abbrev S500000x128 : Shape := ⟨2, ![500000, 128]⟩
abbrev S_ : Shape := ⟨0, ![]⟩
abbrev S500000x128x1 : Shape := ⟨3, ![500000, 128, 1]⟩
abbrev S500000x1 : Shape := ⟨2, ![500000, 1]⟩
abbrev S1x128 : Shape := ⟨2, ![1, 128]⟩
abbrev S262144x128 : Shape := ⟨2, ![262144, 128]⟩
abbrev S262144x1 : Shape := ⟨2, ![262144, 1]⟩

abbrev nBuf : Space → Nat
  | .hbm => 52
  | .vmem => 0
  | .smem => 0
  | _ => 0

abbrev bufTy : (tb : Table) → Fin (tcTables nBuf tb) → BufTy
  | .hbm, ⟨0, _⟩ => ⟨S500000, .f32⟩
  | .hbm, ⟨1, _⟩ => ⟨S262144, .f32⟩
  | .hbm, ⟨2, _⟩ => ⟨S128, .f32⟩
  | .hbm, ⟨3, _⟩ => ⟨S500000, .i32⟩
  | .hbm, ⟨4, _⟩ => ⟨S500000x128, .i32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .i1⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S500000x128, .i32⟩
  | .hbm, ⟨21, _⟩ => ⟨S500000x128, .i1⟩
  | .hbm, ⟨22, _⟩ => ⟨S_, .i32⟩
  | .hbm, ⟨23, _⟩ => ⟨S500000x128, .i32⟩
  | .hbm, ⟨24, _⟩ => ⟨S500000x128, .i32⟩
  | .hbm, ⟨25, _⟩ => ⟨S500000x128, .i32⟩
  | .hbm, ⟨26, _⟩ => ⟨S500000x128x1, .i32⟩
  | .hbm, ⟨27, _⟩ => ⟨S500000x128, .f32⟩
  | .hbm, ⟨28, _⟩ => ⟨S500000x1, .f32⟩
  | .hbm, ⟨29, _⟩ => ⟨S500000x128, .f32⟩
  | .hbm, ⟨30, _⟩ => ⟨S500000x128, .f32⟩
  | .hbm, ⟨31, _⟩ => ⟨S1x128, .f32⟩
  | .hbm, ⟨32, _⟩ => ⟨S1x128, .f32⟩
  | .hbm, ⟨33, _⟩ => ⟨S500000x128, .f32⟩
  | .hbm, ⟨34, _⟩ => ⟨S500000x128, .f32⟩
  | .hbm, ⟨35, _⟩ => ⟨S500000x128, .f32⟩
  | .hbm, ⟨36, _⟩ => ⟨S_, .f32⟩
  | .hbm, ⟨37, _⟩ => ⟨S262144x128, .f32⟩
  | .hbm, ⟨38, _⟩ => ⟨S500000x1, .i32⟩
  | .hbm, ⟨39, _⟩ => ⟨S262144x128, .f32⟩
  | .hbm, ⟨40, _⟩ => ⟨S_, .f32⟩
  | .hbm, ⟨41, _⟩ => ⟨S500000, .f32⟩
  | .hbm, ⟨42, _⟩ => ⟨S_, .f32⟩
  | .hbm, ⟨43, _⟩ => ⟨S262144, .f32⟩
  | .hbm, ⟨44, _⟩ => ⟨S500000x1, .i32⟩
  | .hbm, ⟨45, _⟩ => ⟨S262144, .f32⟩
  | .hbm, ⟨46, _⟩ => ⟨S_, .f32⟩
  | .hbm, ⟨47, _⟩ => ⟨S262144, .f32⟩
  | .hbm, ⟨48, _⟩ => ⟨S262144, .f32⟩
  | .hbm, ⟨49, _⟩ => ⟨S262144x1, .f32⟩
  | .hbm, ⟨50, _⟩ => ⟨S262144x128, .f32⟩
  | .hbm, ⟨51, _⟩ => ⟨S262144x128, .f32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S_S500000x128 : S_.BroadcastsInDim S500000x128 (![] : Fin 0 → Fin S500000x128.rank)
  bcast_S500000x128_S500000x128x1_0_1 : S500000x128.BroadcastsInDim S500000x128x1 (![0, 1] : Fin 2 → Fin S500000x128x1.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S262144x128 : S_.BroadcastsInDim S262144x128 (![] : Fin 0 → Fin S262144x128.rank)
  bcast_S_S500000 : S_.BroadcastsInDim S500000 (![] : Fin 0 → Fin S500000.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  gather_S262144_S500000x128x1_S500000x128_n_0_n_n_0_2_1_wf : GatherDims.WF S262144 S500000x128x1 S500000x128 [] [0] [] [0] [] 2 ![1]
  scatter_S262144x128_S500000x1_S500000x128_1_0_0_1_wf : ScatterDims.WF S262144x128 S500000x1 S500000x128 [1] [0] [0] 1
  scatter_S262144_S500000x1_S500000_n_0_0_1_wf : ScatterDims.WF S262144 S500000x1 S500000 [] [0] [0] 1

variable [Facts₀]

def gather_S262144_S500000x128x1_S500000x128_n_0_n_n_0_2_1 : GatherDims S262144 S500000x128x1 S500000x128 where
  offsetDims := []
  collapsedSliceDims := [0]
  operandBatchingDims := []
  startIndicesBatchingDims := []
  startIndexMap := [0]
  indexVectorDim := 2
  sliceSizes := ![1]
  wf := gather_S262144_S500000x128x1_S500000x128_n_0_n_n_0_2_1_wf
def scatter_S262144x128_S500000x1_S500000x128_1_0_0_1 : ScatterDims S262144x128 S500000x1 S500000x128 where
  updateWindowDims := [1]
  insertedWindowDims := [0]
  scatterDimsToOperandDims := [0]
  indexVectorDim := 1
  wf := scatter_S262144x128_S500000x1_S500000x128_1_0_0_1_wf
def scatter_S262144_S500000x1_S500000_n_0_0_1 : ScatterDims S262144 S500000x1 S500000 where
  updateWindowDims := []
  insertedWindowDims := [0]
  scatterDimsToOperandDims := [0]
  indexVectorDim := 1
  wf := scatter_S262144_S500000x1_S500000_n_0_0_1_wf

class Facts : Prop extends Facts₀ where

variable [Facts]
-- ==== Proof.DecayLaw.lean ====
/-
  The scalar law that joins the two programs. Both compute, for a decay entry `d`, a gathered time `g` and an
  event time `t`, the weight  exp (−softplus d · (g − t))  with  softplus d = max d 0 + log (1 + exp (−|d − 0|)),
  guarded by a self-comparison `δ ≠ δ` of `δ = d − 0` that selects `d + 0` instead. They spell it differently:
  the kernel negates by subtracting from the zero word (`0 − y`) and tests "ordered and not equal", the reference
  negates directly (`−y`) and tests "unordered or not equal". On the extended reals nothing differs from itself, so
  either test is the bit 0 and both selects take the softplus arm; and `0 − y = −y` for every extended real `y`,
  the infinities included, so no finiteness of the inputs is used. The transcendental functions are one function on
  both sides (the host's `exp` and `log1p` are the kernel's).
-/
import Idealize.ShloMosaic.PureOps.Ideal
import Idealize.ShloMosaic.PureOps.Ideal.Laws

noncomputable section

namespace Cert.Decay

open Idealize.ShloMosaic

variable {F : FTy → Type} [FloatOps F]

/-- The zero word. -/
abbrev zeroW : F .f32 := FloatOps.ofBits .f32 0x00000000#32

/-- One entry of softplus as the kernel's body computes it. -/
def softplusK (d : F .f32) : F .f32 :=
  Scalar.select (FloatOps.cmpf .one (FloatOps.subf d zeroW) (FloatOps.subf d zeroW)) (FloatOps.addf d zeroW)
    (FloatOps.addf (FloatOps.maximumf d zeroW)
      (FloatOps.log1p (FloatOps.exp (FloatOps.subf zeroW (FloatOps.absf (FloatOps.subf d zeroW))))))

/-- One entry of softplus as the reference's host function computes it. -/
def softplusH (d : F .f32) : F .f32 :=
  Scalar.select (FloatOps.cmpf .une (FloatOps.subf d zeroW) (FloatOps.subf d zeroW)) (FloatOps.addf d zeroW)
    (FloatOps.addf (FloatOps.maximumf d zeroW)
      (FloatOps.hostUnary .log1p (FloatOps.hostUnary .exp (FloatOps.hostNegf (FloatOps.hostAbsf (FloatOps.subf d zeroW))))))

/-- One entry of the kernel's decay weight: `exp ((0 − softplus d) · (g − t))`. -/
def weightK (d g t : F .f32) : F .f32 :=
  FloatOps.exp (FloatOps.mulf (FloatOps.subf zeroW (softplusK d)) (FloatOps.subf g t))

/-- One entry of the reference's decay weight: `exp ((−softplus d) · (g − t))`. -/
def weightH (d g t : F .f32) : F .f32 :=
  FloatOps.hostUnary .exp (FloatOps.mulf (FloatOps.hostNegf (softplusH d)) (FloatOps.subf g t))

/-- An extended real does not differ from itself: the "ordered and not equal" self-test is the bit 0, so a select on it
    takes its second arm. -/
theorem select_one_self (x a b : Ideal .f32) :
    Scalar.select (FloatOps.cmpf (F := Ideal) .one x x) a b = b := by
  show (if BitVec.ofBool (decide (x ≠ x)) = 1 then a else b) = b
  simp

/-- The same for the "unordered or not equal" self-test: nothing is unordered on the extended reals. -/
theorem select_une_self (x a b : Ideal .f32) :
    Scalar.select (FloatOps.cmpf (F := Ideal) .une x x) a b = b := by
  show (if BitVec.ofBool (decide (x ≠ x)) = 1 then a else b) = b
  simp

/-- Subtracting from zero is negation, at every extended real. -/
theorem zeroW_sub (y : Ideal .f32) : FloatOps.subf (zeroW (F := Ideal)) y = -y := by
  show Ideal.ofBits .f32 0x00000000#32 - y = -y
  rw [Ideal.ofBits_zero_f32, zero_sub]

/-- The two softplus entries are one extended real. -/
theorem softplusK_eq_softplusH (d : Ideal .f32) : softplusK (F := Ideal) d = softplusH d := by
  unfold softplusK softplusH
  rw [select_one_self, select_une_self, zeroW_sub]
  rfl

/-- The two weight entries are one extended real. -/
theorem weightK_eq_weightH (d g t : Ideal .f32) : weightK (F := Ideal) d g t = weightH d g t := by
  unfold weightK weightH
  rw [softplusK_eq_softplusH, zeroW_sub]
  rfl

end Cert.Decay

end
-- ==== Proof.KernelWeights.lean ====
/-
  The kernel's weights array. The region tiles the event axis in 100 blocks of 5000 rows; at block `t` the body reads rows
  5000 t … 5000 t + 4999 of the gathered times (all 128 lanes), the same rows of the event-time column, and the one row of
  decay entries, and stores  exp ((0 − softplus d_q) · (g_{r,q} − t_r))  at every (r, q) of the block. So each block the
  region writes back is that block of ONE array `weights`, a function of the three arrays the region finds; the blocks
  cover the array (row r lies in block r / 5000), and the array ends holding `weights`.
-/
import proofs.«116074_j34857954574530_1_alg».proof.Proof.Gen.KernelIdeal.Frame
import proofs.«116074_j34857954574530_1_alg».proof.Proof.DecayLaw
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Weights

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The event-time column spread over the lanes: entry (p, q) reads row p of the column. -/
theorem spread_col (x1 : Vec F S5000x1 .f32) (p : Fin 5000) (q : Fin 128) :
    broadcastTo S5000x128 x1 broadcasts_S5000x1_S5000x128 (ix2 p q) = x1 (ix2 p 0) :=
  broadcastTo_apply x1 _ (ix2 p q) (ix2 p 0) fun a => match a with
    | ⟨0, _⟩ => by show p.val = if (5000 : Nat) = 1 then 0 else p.val; rw [if_neg (by decide)]
    | ⟨1, _⟩ => by show (0 : Nat) = if (1 : Nat) = 1 then 0 else q.val; rw [if_pos rfl]

/-- The decay row spread over the rows: entry (p, q) reads lane q of the row. -/
theorem spread_row (x2 : FVec F S1x128 .f32) (p : Fin 5000) (q : Fin 128) :
    broadcastTo S5000x128 x2 broadcasts_S1x128_S5000x128 (ix2 p q) = x2 (ix2 0 q) :=
  broadcastTo_apply x2 _ (ix2 p q) (ix2 0 q) fun a => match a with
    | ⟨0, _⟩ => by show (0 : Nat) = if (1 : Nat) = 1 then 0 else p.val; rw [if_pos rfl]
    | ⟨1, _⟩ => by show q.val = if (128 : Nat) = 1 then 0 else q.val; rw [if_neg (by decide)]

/-- The body's stored value at entry (p, q) of a block: the weight of the decay entry in lane q, the gathered time at
    (p, q) and the event time in row p. -/
theorem pay_apply (x0 : Vec F S5000x128 .f32) (x1 : Vec F S5000x1 .f32) (x2 : Vec F S1x128 .f32) (p : Fin 5000) (q : Fin 128) :
    k0_pay1 x0 x1 x2 (ix2 p q) = Decay.weightK (x2 (ix2 0 q)) (x0 (ix2 p q)) (x1 (ix2 p 0)) := by
  unfold k0_pay1
  simp only [shapeCast_self]
  show FloatOps.exp (FloatOps.mulf (broadcastTo S5000x128 _ broadcasts_S1x128_S5000x128 (ix2 p q))
    (FloatOps.subf (x0 (ix2 p q)) (broadcastTo S5000x128 x1 broadcasts_S5000x1_S5000x128 (ix2 p q)))) = _
  rw [spread_row, spread_col]
  rfl

/-- The printed index maps over the grid: the three row-tiled windows sit at block row `t`, the decay row at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block `t` of the gathered times is their rows 5000 t + p. -/
theorem times_block (c : Dev nD) (t : Fin cfg0.N) (p : Fin 5000) (q : Fin 128) (r : Fin 500000) (hr : r.val = 5000 * t.val + p.val) :
    (iblk m c 0 t : Vec F S5000x128 .f32) (ix2 p q) = (V m c main_v6 : S500000x128.Idx → Elt F .f32) (ix2 r q) := by
  obtain ⟨e0, e1, -⟩ := idx_facts t
  unfold iblk
  rw [View.read_apply]
  show V m c main_v6 _ = V m c main_v6 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * q.val = q.val; rw [e1]; omega

/-- Block `t` of the event-time column is its rows 5000 t + p. -/
theorem column_block (c : Dev nD) (t : Fin cfg0.N) (p : Fin 5000) (r : Fin 500000) (hr : r.val = 5000 * t.val + p.val) :
    (iblk m c 1 t : Vec F S5000x1 .f32) (ix2 p 0) = (V m c main_v7 : S500000x1.Idx → Elt F .f32) (ix2 r 0) := by
  obtain ⟨-, -, e0, e1, -⟩ := idx_facts t
  unfold iblk
  rw [View.read_apply]
  show V m c main_v7 _ = V m c main_v7 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 1 + 1 * (0 : Fin 1).val = (0 : Fin 1).val; rw [e1]; rfl

/-- Every block of the decay row is the row. -/
theorem decay_block (c : Dev nD) (t : Fin cfg0.N) (q : Fin 128) :
    (iblk m c 2 t : Vec F S1x128 .f32) (ix2 0 q) = (V m c main_v8 : S1x128.Idx → Elt F .f32) (ix2 0 q) := by
  obtain ⟨-, -, -, -, e0, e1, -⟩ := idx_facts t
  unfold iblk
  rw [View.read_apply]
  show V m c main_v8 _ = V m c main_v8 _
  congr 1
  funext a
  apply Fin.ext
  match a with
  | ⟨0, _⟩ => show win0_2.index t (0 : Fin 2) * 1 + 1 * (0 : Fin 1).val = (0 : Fin 1).val; rw [e0]; rfl
  | ⟨1, _⟩ => show win0_2.index t (1 : Fin 2) * 128 + 1 * q.val = q.val; rw [e1]; omega

/-- THE WEIGHTS: at (r, q) the weight of decay entry q, gathered time (r, q) and event time r. -/
def weights (g : S500000x128.Idx → Elt F .f32) (tin : S500000x1.Idx → Elt F .f32) (d : S1x128.Idx → Elt F .f32) :
    S500000x128.Idx → Elt F .f32 :=
  fun i => Decay.weightK (d (ix2 0 (i 1))) (g (ix2 (i 0) (i 1))) (tin (ix2 (i 0) 0))

/-- What point `t` writes back is block `t` of the weights of the arrays the region finds. -/
theorem wrote_back (c : Dev nD) (t : Fin cfg0.N) :
    (dats m 0 c).flushed 3 t = ((cfg0.win 3).blk t).view.read (Elt F) (weights (V m c main_v6) (V m c main_v7) (V m c main_v8)) := by
  show (cfg0.win 3).cut (grid0.coords t) ((dats m 0 c).after 3 t) = _
  rw [after0_3]
  unfold out0_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  obtain ⟨-, -, -, -, -, -, e0, e1⟩ := idx_facts t
  have hN : cfg0.N = 100 := N_0
  have hr : 5000 * t.val + p.val < 500000 := by have := t.isLt; omega
  have hemb : ((cfg0.win 3).blk t).view.emb (ix2 p q) = (ix2 (⟨5000 * t.val + p.val, hr⟩ : Fin 500000) q : S500000x128.Idx) := by
    funext a
    apply Fin.ext
    match a with
    | ⟨0, _⟩ => show win0_3.index t (0 : Fin 2) * 5000 + 1 * p.val = 5000 * t.val + p.val; rw [e0]; omega
    | ⟨1, _⟩ => show win0_3.index t (1 : Fin 2) * 128 + 1 * q.val = q.val; rw [e1]; omega
  refine (pay_apply (iblk m c 0 t) (iblk m c 1 t) (iblk m c 2 t) p q).trans ?_
  rw [times_block m c t p q ⟨5000 * t.val + p.val, hr⟩ rfl, column_block m c t p ⟨5000 * t.val + p.val, hr⟩ rfl, decay_block m c t q]
  show _ = weights (V m c main_v6) (V m c main_v7) (V m c main_v8) (((cfg0.win 3).blk t).view.emb (ix2 p q))
  rw [hemb]
  rfl

/-- An index of the weights array is in point `t`'s block iff each coordinate is in the block's range on its axis. -/
theorem mem_out_block (t : Fin cfg0.N) (i : S500000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v9).slice (win0_3.rect t)).set ↔ _
  rw [View.set_slice_whole, Rect.mem_set_unit]
  exact Iff.rfl

/-- The blocks cover the array: row r lies in the block of point r / 5000, which is written back. -/
theorem covered (i : S500000x128.Idx) :
    ∃ t : Fin cfg0.N, (cfg0.win 3).flush t = true ∧ i ∈ ((cfg0.win 3).blk t).view.set := by
  have hN : cfg0.N = 100 := N_0
  have hi0 : (i 0).val < 500000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, e0, e1⟩ := idx_facts t
  refine ⟨t, flush0_3 t, ?_⟩
  rw [mem_out_block]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- THE ARRAY after the region: the weights of the arrays the region finds. -/
theorem final_weights (c : Dev nD) :
    (dats m 0 c).arrAt 3 cfg0.N = weights (V m c main_v6) (V m c main_v7) (V m c main_v8) :=
  (dats m 0 c).arrAt_eq_of_cover 3 _ (fun t _ => wrote_back m c t) covered

end Cert.KernelIdeal.Weights

end
-- ==== Proof.KernelRun.lean ====
/-
  The kernel program's result as a function of its arguments. Before the region the host gathers the predecessor times
  (one function `gathered` of the time table and the index array, which both programs compute alike and which is never
  opened here), and lays the event times out as a column and the decay entries as a row; so the weights the region
  leaves are `weightsOf` of the arguments: at (r, q) the weight of decay entry q, gathered time (r, q) and event time r.
  After the region the host pools the weights' rows by segment id — the sum of the rows of each segment over
  max (count, 1) — which is named `pooled` as ONE function of the segment ids and the weights and is never opened
  either: the reference applies the same operations to its own weights.
-/
import proofs.«116074_j34857954574530_1_alg».proof.Proof.KernelWeights
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Pooled

open Cert.KernelIdeal Cert.KernelIdeal.Gen Cert.KernelIdeal.Weights

variable {F : FTy → Type} [FloatOps F]
variable (m : (ℓ : Loc nD τ sig) → Buf (Elt F) ℓ) (ρ : Dev nD → PrngReg)

/-- The predecessor times: the time table read at the index array, a negative index first moved up by the table's
    length. -/
def gathered (a1 : (⟨S262144, .f32⟩ : BufTy).Contents (Elt F)) (a4 : (⟨S500000x128, .i32⟩ : BufTy).Contents (Elt F)) :
    (⟨S500000x128, .f32⟩ : BufTy).Contents (Elt F) :=
  Host.gather gather_S262144_S500000x128x1_S500000x128_n_0_n_n_0_2_1 a1
    (broadcastInDim S500000x128x1 ![0, 1] bcast_S500000x128_S500000x128x1_0_1
      (select (cmpi .slt a4 (broadcastInDim S500000x128 ![] bcast_S_S500000x128 (constantI S_ 32 0#32)))
        (addi a4 (broadcastInDim S500000x128 ![] bcast_S_S500000x128 (constantI S_ 32 262144#32))) a4))

/-- The region finds the gathered times in its first window's array. -/
theorem found_times (c : Dev nD) :
    V m c main_v6 = gathered (m ((c : Thread nD τ).loc main_arg1)) (m ((c : Thread nD τ).loc main_arg4)) := by
  show StableHlo.after hostOps0 (fun b => m (c, b)) (Proc.devRef .tc main_v6) = _
  after_results
  rfl

/-- The region finds the event times as a column: row r holds event time r. -/
theorem found_column (c : Dev nD) (r : Fin 500000) :
    (V m c main_v7 : S500000x1.Idx → Elt F .f32) (ix2 r 0)
      = (m ((c : Thread nD τ).loc main_arg0) : S500000.Idx → Elt F .f32) (ix1 r) := by
  have e : (V m c main_v7 : S500000x1.Idx → Elt F .f32)
      = shapeCast S500000x1 (m ((c : Thread nD τ).loc main_arg0) : S500000.Idx → Elt F .f32) shapeCasts_S500000_S500000x1 := by
    show StableHlo.after hostOps0 (fun b => m (c, b)) (Proc.devRef .tc main_v7) = _
    after_results
    rfl
  rw [e]
  refine shapeCast_apply _ _ (ix2 r 0) (ix1 r) ?_
  rw [Shape.rowMajor_val_one, Shape.rowMajor_val_two]
  show r.val = r.val * 1 + 0
  omega

/-- The region finds the decay entries as a row: lane q holds decay entry q. -/
theorem found_decay (c : Dev nD) (q : Fin 128) :
    (V m c main_v8 : S1x128.Idx → Elt F .f32) (ix2 0 q)
      = (m ((c : Thread nD τ).loc main_arg2) : S128.Idx → Elt F .f32) (ix1 q) := by
  have e : (V m c main_v8 : S1x128.Idx → Elt F .f32)
      = shapeCast S1x128 (m ((c : Thread nD τ).loc main_arg2) : S128.Idx → Elt F .f32) shapeCasts_S128_S1x128 := by
    show StableHlo.after hostOps0 (fun b => m (c, b)) (Proc.devRef .tc main_v8) = _
    after_results
    rfl
  rw [e]
  refine shapeCast_apply _ _ (ix2 0 q) (ix1 q) ?_
  rw [Shape.rowMajor_val_one, Shape.rowMajor_val_two]
  show q.val = 0 * 128 + q.val
  omega

/-- THE WEIGHTS OF THE ARGUMENTS: at (r, q) the weight of decay entry q, predecessor time (r, q) and event time r. -/
def weightsOf (a0 : (⟨S500000, .f32⟩ : BufTy).Contents (Elt F)) (a1 : (⟨S262144, .f32⟩ : BufTy).Contents (Elt F))
    (a2 : (⟨S128, .f32⟩ : BufTy).Contents (Elt F)) (a4 : (⟨S500000x128, .i32⟩ : BufTy).Contents (Elt F)) :
    (⟨S500000x128, .f32⟩ : BufTy).Contents (Elt F) :=
  fun i => Decay.weightK (a2 (ix1 (i 1))) (gathered a1 a4 (ix2 (i 0) (i 1))) (a0 (ix1 (i 0)))

/-- The weights of what the region finds are the weights of the arguments. -/
theorem weights_found (c : Dev nD) :
    weights (V m c main_v6) (V m c main_v7) (V m c main_v8)
      = weightsOf (m ((c : Thread nD τ).loc main_arg0)) (m ((c : Thread nD τ).loc main_arg1))
          (m ((c : Thread nD τ).loc main_arg2)) (m ((c : Thread nD τ).loc main_arg4)) := by
  funext i
  unfold weights weightsOf
  rw [found_times m c, found_column m c (i 0), found_decay m c (i 1)]

/-- THE POOLING: the weights' rows summed per segment id, over the segment's count or 1 if that is larger. -/
def pooled (seg : (⟨S500000, .i32⟩ : BufTy).Contents (Elt F)) (w : (⟨S500000x128, .f32⟩ : BufTy).Contents (Elt F)) :
    (⟨S262144x128, .f32⟩ : BufTy).Contents (Elt F) :=
  Host.divf
    (Host.scatterAdd scatter_S262144x128_S500000x1_S500000x128_1_0_0_1
      (broadcastInDim S262144x128 ![] bcast_S_S262144x128 (constant (F := F) S_ .f32 0x00000000#32))
      (broadcastInDim S500000x1 ![0] bcast_S500000_S500000x1_0 seg) w)
    (broadcastInDim S262144x128 ![0, 1] bcast_S262144x1_S262144x128_0_1
      (broadcastInDim S262144x1 ![0] bcast_S262144_S262144x1_0
        (maximumf
          (Host.scatterAdd scatter_S262144_S500000x1_S500000_n_0_0_1
            (broadcastInDim S262144 ![] bcast_S_S262144 (constant (F := F) S_ .f32 0x00000000#32))
            (broadcastInDim S500000x1 ![0] bcast_S500000_S500000x1_0 seg)
            (broadcastInDim S500000 ![] bcast_S_S500000 (constant (F := F) S_ .f32 0x3F800000#32)))
          (broadcastInDim S262144 ![] bcast_S_S262144 (constant (F := F) S_ .f32 0x3F800000#32)))))

/-- The host operations after the region pool the array the region leaves by the segment-id argument. -/
theorem tail_eq (c : Dev nD) :
    Pipeline.afterTail₀ cfgs (dats m) 0 (V0 m) [hostOps1] c main_v21
      = pooled (m ((c : Thread nD τ).loc main_arg3)) ((dats m 0 c).arrAt 3 cfg0.N) := by
  have h9 : Pipeline.withArrays (cfgs 0).spec c (V0 m c) (fun w => (dats m 0 c).arrAt w (cfgs 0).N) (Proc.devRef .tc main_v9)
      = (dats m 0 c).arrAt 3 cfg0.N := Pipeline.withArrays_arr spec0 launch0.win.arr_inj c _ _ 3
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v21) = _
  after_results
  rw [h9, h3]
  rfl

/-- THE RUN, READ: the result array at the pooled weights of the arguments, the arguments unchanged. -/
theorem run : θ_run defs (onTc (τ := τ) (main (F := F))) ⟨m, fun _ => 0, ρ⟩ fun r => ∀ c : Dev nD,
      r.2.mem ((c.tc : Thread nD τ).loc main_v21)
        = pooled (m ((c.tc : Thread nD τ).loc main_arg3))
            (weightsOf (m ((c.tc : Thread nD τ).loc main_arg0)) (m ((c.tc : Thread nD τ).loc main_arg1))
              (m ((c.tc : Thread nD τ).loc main_arg2)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v21 (Pipeline.mem_restRefs_of main_v21 (by decide) (by decide))).trans
        ((tail_eq m c).trans (by rw [final_weights m c, weights_found m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Pooled

end
-- ==== Proof.Bridge.lean ====
/-
  The two programs' results are one function of the arguments. Index by index the reference's weights are
  exp ((−softplus d_q) · (g_{r,q} − t_r))  and the kernel's  exp ((0 − softplus d_q) · (g_{r,q} − t_r)),  over the same
  predecessor times g (both gather them by the same operations), the same event times and the same decay entries, the
  reference reading them through broadcasts and the kernel through its column and row; the scalar law joins the two.
  Both then pool their weights by the same host operations, which are compared as one function and never opened.
-/
import proofs.«116074_j34857954574530_1_alg».proof.Proof.KernelRun
import proofs.«116074_j34857954574530_1_alg».proof.Proof.Gen.ReferenceIdeal.Read

set_option maxRecDepth 16384

noncomputable section

open Idealize.ShloMosaic Idealize.ShloMosaic.TcCoe Idealize.SL.Sem Idealize.ShloMosaic.ValueIdx

namespace Cert.Bridge

open Cert.ReferenceIdeal Cert.ReferenceIdeal.Read

/-- Both programs gather the predecessor times by the same operations. -/
theorem gathered_eq (a1 : (⟨S262144, .f32⟩ : BufTy).Contents (Elt Ideal)) (a4 : (⟨S500000x128, .i32⟩ : BufTy).Contents (Elt Ideal)) :
    Cert.KernelIdeal.Pooled.gathered (F := Ideal) a1 a4 = val_main_v7 (F := Ideal) a1 a4 := rfl

/-- One entry of the reference's softplus stage is the host form of softplus of the decay entry. -/
theorem softplus_stage (a2 : (⟨S128, .f32⟩ : BufTy).Contents (Elt Ideal)) (q : Fin 128) :
    val_main_v0 (F := Ideal) a2 (ix1 q) = Cert.Decay.softplusH (F := Ideal) (a2 (ix1 q)) := rfl

/-- THE WEIGHTS AGREE: the kernel's weights of the arguments are the reference's weights stage, index by index. -/
theorem weights_eq (a0 : (⟨S500000, .f32⟩ : BufTy).Contents (Elt Ideal)) (a1 : (⟨S262144, .f32⟩ : BufTy).Contents (Elt Ideal))
    (a2 : (⟨S128, .f32⟩ : BufTy).Contents (Elt Ideal)) (a4 : (⟨S500000x128, .i32⟩ : BufTy).Contents (Elt Ideal)) :
    Cert.KernelIdeal.Pooled.weightsOf (F := Ideal) a0 a1 a2 a4 = val_main_v15 (F := Ideal) a0 a1 a2 a4 := by
  funext i
  obtain ⟨r, q, rfl⟩ : ∃ (r : Fin 500000) (q : Fin 128), i = ix2 r q := ⟨i 0, i 1, eq_ix2 (n0 := 500000) (n1 := 128) i⟩
  have hq : idx_main_v11 (idx_main_v13 (ix2 r q)) = ix1 q :=
    funext fun a => match a with | ⟨0, _⟩ => rfl
  have hr : idx_main_v8 (idx_main_v9 (ix2 r q)) = ix1 r :=
    funext fun a => match a with | ⟨0, _⟩ => rfl
  rw [val_main_v15_apply, val_main_v14_apply, val_main_v13_apply, val_main_v12_apply, val_main_v11_apply,
    val_main_v10_apply, val_main_v9_apply, val_main_v8_apply, hq, hr, softplus_stage, ← gathered_eq]
  exact Cert.Decay.weightK_eq_weightH _ _ _

/-- THE RESULTS AGREE: the kernel's pooled weights are the reference's result stage. -/
theorem result_eq (a0 : (⟨S500000, .f32⟩ : BufTy).Contents (Elt Ideal)) (a1 : (⟨S262144, .f32⟩ : BufTy).Contents (Elt Ideal))
    (a2 : (⟨S128, .f32⟩ : BufTy).Contents (Elt Ideal)) (a3 : (⟨S500000, .i32⟩ : BufTy).Contents (Elt Ideal))
    (a4 : (⟨S500000x128, .i32⟩ : BufTy).Contents (Elt Ideal)) :
    Cert.KernelIdeal.Pooled.pooled (F := Ideal) a3 (Cert.KernelIdeal.Pooled.weightsOf a0 a1 a2 a4)
      = val_main_v27 (F := Ideal) a0 a1 a2 a3 a4 := by
  rw [weights_eq]
  rfl

end Cert.Bridge

end
-- ==== Proof.lean ====
/- The certificate: a decay-weighted pooling of event times.
   Both programs gather a predecessor time g_{r,q} for each event r and filter q, weight it by
   exp (−softplus d_q · (g_{r,q} − t_r)), sum the weights' rows per segment id and divide by the segment's count (or 1).
   The kernel computes the weights in a region tiled over the events, the reference on the host; gathering and pooling
   are the same host operations in both. At the extended reals the two weights differ only in how the negation and the
   dead self-comparison of softplus are spelt (Proof/DecayLaw.lean); the region's blocks assemble to one array of
   weights (Proof/KernelWeights.lean), a function of the arguments which the shared pooling is applied to
   (Proof/KernelRun.lean), and that function is the reference's (Proof/Bridge.lean). No rewrite was made when the
   kernel was read at the extended reals, so that reading is faithful with nothing to state; the frames of the two
   kernel programs are their generated runs', the reference's its generated run with the result dropped. -/
import proofs.«116074_j34857954574530_1_alg».proof.Defs
import proofs.«116074_j34857954574530_1_alg».proof.Proof.Gen.Kernel
import proofs.«116074_j34857954574530_1_alg».proof.Proof.Gen.Kernel.Skeleton
import proofs.«116074_j34857954574530_1_alg».proof.Proof.Gen.Kernel.Launch
import proofs.«116074_j34857954574530_1_alg».proof.Proof.Gen.Kernel.Points
import proofs.«116074_j34857954574530_1_alg».proof.Proof.Gen.Kernel.Frame
import proofs.«116074_j34857954574530_1_alg».proof.Proof.Gen.KernelIdeal
import proofs.«116074_j34857954574530_1_alg».proof.Proof.Gen.KernelIdeal.Skeleton
import proofs.«116074_j34857954574530_1_alg».proof.Proof.Gen.KernelIdeal.Launch
import proofs.«116074_j34857954574530_1_alg».proof.Proof.Gen.KernelIdeal.Points
import proofs.«116074_j34857954574530_1_alg».proof.Proof.Gen.KernelIdeal.Frame
import proofs.«116074_j34857954574530_1_alg».proof.Proof.Gen.ReferenceIdeal
import proofs.«116074_j34857954574530_1_alg».proof.Proof.Gen.Pre_finite_inputs
import proofs.«116074_j34857954574530_1_alg».proof.Proof.Gen.ReferenceIdeal.Run
import proofs.«116074_j34857954574530_1_alg».proof.Proof.Gen.ReferenceIdeal.Read
import proofs.«116074_j34857954574530_1_alg».proof.Proof.Bridge
import Idealize.ShloMosaic.Adequacy
import Idealize.ShloMosaic.Init

noncomputable section

namespace Cert.Proof

open Idealize.ShloMosaic Idealize.SL.Sem

/-- The kernel as printed runs, its arguments unchanged. -/
theorem frame_kernel : Cert.frame_Kernel := fun m ρ _ => Cert.Kernel.Gen.frame m ρ

/-- The kernel read at the extended reals runs, its arguments unchanged. -/
theorem frame_kernelIdeal : Cert.frame_KernelIdeal := fun m ρ _ => Cert.KernelIdeal.Gen.frame m ρ

/-- The reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree the kernel ends at the pooled weights of its arguments and the reference at its result
    stage of the same arguments: one function. -/
theorem algebraic : Cert.algebraic_KernelIdeal_ReferenceIdeal := by
  intro m ρ m' ρ' _ hagree
  refine ⟨_, Cert.KernelIdeal.Pooled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1,
    (hagree c).2.2.2.2]
  exact (Cert.Bridge.result_eq _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
